-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  main_v3
-- ==== Kernel.lean ====
abbrev S32x2048x64 : Shape := ⟨3, ![32, 2048, 64]⟩
abbrev S32x2048x1024 : Shape := ⟨3, ![32, 2048, 1024]⟩
abbrev S1x2048x64 : Shape := ⟨3, ![1, 2048, 64]⟩
abbrev S1x2048x1024 : Shape := ⟨3, ![1, 2048, 1024]⟩
abbrev S2048x64 : Shape := ⟨2, ![2048, 64]⟩
abbrev S2048x1 : Shape := ⟨2, ![2048, 1]⟩
abbrev S1x128 : Shape := ⟨2, ![1, 128]⟩
abbrev S2048x128 : Shape := ⟨2, ![2048, 128]⟩
abbrev S1x2048x128 : Shape := ⟨3, ![1, 2048, 128]⟩
abbrev S32x2048x16x64 : Shape := ⟨4, ![32, 2048, 16, 64]⟩

abbrev nBuf : Space → Nat
  | .hbm => 3
  | .vmem => 4
  | .smem => 0
  | _ => 0

abbrev bufTy : (tb : Table) → Fin (tcTables nBuf tb) → BufTy
  | .hbm, ⟨0, _⟩ => ⟨S32x2048x64, .f32⟩
  | .hbm, ⟨1, _⟩ => ⟨S32x2048x1024, .f32⟩
  | .hbm, ⟨2, _⟩ => ⟨S32x2048x16x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x1024, .f32⟩
  | .local _ .vmem, ⟨3, _⟩ => ⟨S1x2048x1024, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  iota_S2048x1_d0_w32 : S2048x1.Iotas .tc 32 [0]
  iota_S1x128_d1_w32 : S1x128.Iotas .tc 32 [1]
  natLt_1_32 : 1 < 32
  rotates_S2048x64_d0 : S2048x64.Rotates 0 none
  concatenates_S2048x64_S2048x64_S2048x128_d1 : Shape.Concatenates [S2048x64, S2048x64] S2048x128 1
  rotates_S2048x128_d0 : S2048x128.Rotates 0 none
  broadcasts_S2048x1_S2048x128 : S2048x1.Broadcasts S2048x128
  broadcasts_S1x128_S2048x128 : S1x128.Broadcasts S2048x128
  inb_S1x2048x1024_S1x2048x128_0_0_0 : ∀ a, (![0, 0, 0] : Fin 3 → Nat) a + S1x2048x128.size a ≤ S1x2048x1024.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x2048x1024_S1x2048x128_0_0_128 : ∀ a, (![0, 0, 128] : Fin 3 → Nat) a + S1x2048x128.size a ≤ S1x2048x1024.size a
  inb_S1x2048x1024_S1x2048x128_0_0_256 : ∀ a, (![0, 0, 256] : Fin 3 → Nat) a + S1x2048x128.size a ≤ S1x2048x1024.size a
  inb_S1x2048x1024_S1x2048x128_0_0_384 : ∀ a, (![0, 0, 384] : Fin 3 → Nat) a + S1x2048x128.size a ≤ S1x2048x1024.size a
  inb_S1x2048x1024_S1x2048x128_0_0_512 : ∀ a, (![0, 0, 512] : Fin 3 → Nat) a + S1x2048x128.size a ≤ S1x2048x1024.size a
  inb_S1x2048x1024_S1x2048x128_0_0_640 : ∀ a, (![0, 0, 640] : Fin 3 → Nat) a + S1x2048x128.size a ≤ S1x2048x1024.size a
  inb_S1x2048x1024_S1x2048x128_0_0_768 : ∀ a, (![0, 0, 768] : Fin 3 → Nat) a + S1x2048x128.size a ≤ S1x2048x1024.size a
  inb_S1x2048x1024_S1x2048x128_0_0_896 : ∀ a, (![0, 0, 896] : Fin 3 → Nat) a + S1x2048x128.size a ≤ S1x2048x1024.size a
  shapeCasts_S32x2048x1024_S32x2048x16x64 : S32x2048x1024.ShapeCasts S32x2048x16x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S32x2048x1024.size a
  hwx0_1 : ∀ i : grid0.Coords, EltTy.bits .f32 = 32 ∨ (Rect.block (s := S32x2048x1024) S1x2048x1024.size (cc0_transform_1 i) (hinb0_1 i)).WholeWords (EltTy.packing .f32)

variable [Facts₀]

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S_ : Shape := ⟨0, ![]⟩
abbrev S32x2063x64 : Shape := ⟨3, ![32, 2063, 64]⟩
abbrev S2048 : Shape := ⟨1, ![2048]⟩
abbrev S2048x1 : Shape := ⟨2, ![2048, 1]⟩
abbrev S16 : Shape := ⟨1, ![16]⟩
abbrev S1x16 : Shape := ⟨2, ![1, 16]⟩
abbrev S2048x16 : Shape := ⟨2, ![2048, 16]⟩
abbrev S2048x16x1 : Shape := ⟨3, ![2048, 16, 1]⟩
abbrev S32x2048x16x64 : Shape := ⟨4, ![32, 2048, 16, 64]⟩

abbrev nBuf : Space → Nat
  | .hbm => 20
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S_, .i32⟩
  | .hbm, ⟨2, _⟩ => ⟨S_, .f32⟩
  | .hbm, ⟨3, _⟩ => ⟨S32x2063x64, .f32⟩
  | .hbm, ⟨4, _⟩ => ⟨S2048, .i32⟩
  | .hbm, ⟨5, _⟩ => ⟨S2048x1, .i32⟩
  | .hbm, ⟨6, _⟩ => ⟨S16, .i32⟩
  | .hbm, ⟨7, _⟩ => ⟨S1x16, .i32⟩
  | .hbm, ⟨8, _⟩ => ⟨S2048x16, .i32⟩
  | .hbm, ⟨9, _⟩ => ⟨S2048x16, .i32⟩
  | .hbm, ⟨10, _⟩ => ⟨S2048x16, .i32⟩
  | .hbm, ⟨11, _⟩ => ⟨S_, .i32⟩
  | .hbm, ⟨12, _⟩ => ⟨S2048x16, .i32⟩
  | .hbm, ⟨13, _⟩ => ⟨S2048x16, .i1⟩
  | .hbm, ⟨14, _⟩ => ⟨S_, .i32⟩
  | .hbm, ⟨15, _⟩ => ⟨S2048x16, .i32⟩
  | .hbm, ⟨16, _⟩ => ⟨S2048x16, .i32⟩
  | .hbm, ⟨17, _⟩ => ⟨S2048x16, .i32⟩
  | .hbm, ⟨18, _⟩ => ⟨S2048x16x1, .i32⟩
  | .hbm, ⟨19, _⟩ => ⟨S32x2048x16x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  pads_S32x2048x64_S32x2063x64_000_0150_000 : S32x2048x64.Pads (![0, 0, 0] : Fin 3 → Nat) ![0, 15, 0] ![0, 0, 0] S32x2063x64
  h_S_ : 0 < S_.numel
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  gather_S32x2063x64_S2048x16x1_S32x2048x16x64_03_1_n_n_1_2_32164_wf : GatherDims.WF S32x2063x64 S2048x16x1 S32x2048x16x64 [0, 3] [1] [] [1] [] 2 ![32, 1, 64]

variable [Facts₀]

def gather_S32x2063x64_S2048x16x1_S32x2048x16x64_03_1_n_n_1_2_32164 : GatherDims S32x2063x64 S2048x16x1 S32x2048x16x64 where
  offsetDims := [0, 3]
  collapsedSliceDims := [1]
  operandBatchingDims := []
  startIndicesBatchingDims := []
  startIndexMap := [1]
  indexVectorDim := 2
  sliceSizes := ![32, 1, 64]
  wf := gather_S32x2063x64_S2048x16x1_S32x2048x16x64_03_1_n_n_1_2_32164_wf

class Facts : Prop extends Facts₀ where

variable [Facts]
-- ==== Proof.Pair.lean ====
/-
  The kernel body's arithmetic, read at an index.

  The body loads one batch element `x` ([1, 2048, 64]), forms the 128-lane array `y` whose row `r` is row `r` of `x`
  followed by row `r + 1` (cyclically) of `x`, and stores eight 128-lane pairs. Pair number `j` is `y` moved up by
  `2 j` rows (cyclically) and masked: lane `l` of row `r` is kept when `r + (l / 64) < 2048 - 2 j`, and is zero
  otherwise. So lane `l` of row `r` of pair `j` is `x (r + w, l % 64)` with `w = 2 j + l / 64` when row `r + w` exists,
  and zero when it does not: the mask cuts exactly the rows where the cyclic moves would wrap around.
-/
import proofs.«418246_j13022340841695_3_alg».proof.Proof.Gen.KernelIdeal.Skeleton
import Idealize.ShloMosaic.Lib.ValueIdx
import Idealize.ShloMosaic.Lib.Pipeline.Value
import Idealize.ShloMosaic.Lib.KernelVsHost
import Idealize.ShloMosaic.Lib.StableHlo.Predicate

noncomputable section

namespace Cert.KernelIdeal.Body

open Idealize.ShloMosaic Idealize.ShloMosaic.ValueIdx Cert.KernelIdeal Cert.KernelIdeal.Gen

/-! ## The two-row array `y` -/

section Lanes
variable {α : Type}

/-- `y`: row `r` of `v` in lanes 0–63, row `r + 1` (cyclically) of `v` in lanes 64–127. -/
def twoRows (v : S2048x64.Idx → α) : S2048x128.Idx → α :=
  concatenate S2048x128 1 [⟨S2048x64, v⟩, ⟨S2048x64, dynamicRotate 0 2047#32 none v rotates_S2048x64_d0⟩]
    concatenates_S2048x64_S2048x64_S2048x128_d1

/-- A lane below 64 of `y` reads `v` at the same row. -/
theorem twoRows_low (v : S2048x64.Idx → α) (r : Fin 2048) (l : Fin 128) (hl : l.val < 64) :
    twoRows v (ix2 r l) = v (ix2 r ⟨l.val, hl⟩) := by
  unfold twoRows
  refine concatenate_pair_apply_left (t := S2048x128) (s₁ := S2048x64) (s₂ := S2048x64) 1 v _ _ (ix2 r l) rfl (ix2 r ⟨l.val, hl⟩) ?_
  intro b
  match b with
  | ⟨0, _⟩ => rfl
  | ⟨1, _⟩ => rfl

/-- A lane from 64 on of `y` reads `v` one row further, around the end. -/
theorem twoRows_high (v : S2048x64.Idx → α) (r : Fin 2048) (l : Fin 128) (hl : 64 ≤ l.val) :
    twoRows v (ix2 r l) = v (ix2 ⟨(r.val + 1) % 2048, Nat.mod_lt _ (by decide)⟩ ⟨l.val - 64, by have := l.isLt; omega⟩) := by
  unfold twoRows
  refine (concatenate_pair_apply_right (t := S2048x128) (s₁ := S2048x64) (s₂ := S2048x64) 1 v _ _ (ix2 r l) rfl rfl
    (ix2 r ⟨l.val - 64, by have := l.isLt; omega⟩) ?_ ?_).trans ?_
  · intro b hb
    match b with
    | ⟨0, _⟩ => rfl
    | ⟨1, _⟩ => exact absurd rfl hb
  · show (l.val - 64) + 64 = l.val
    omega
  · refine dynamicRotate_apply (s := S2048x64) 0 2047#32 v rotates_S2048x64_d0 _ _ ?_
    intro b
    match b with
    | ⟨0, _⟩ =>
      show (r.val + 1) % 2048 = if (0 : Fin 2) = 0 then (r.val + 2048 - (2047#32 : BitVec 32).toNat % 2048) % 2048 else r.val
      rw [if_pos rfl]
      show (r.val + 1) % 2048 = (r.val + 2048 - 2047 % 2048) % 2048
      omega
    | ⟨1, _⟩ => rfl

end Lanes

/-! ## The mask -/

/-- The lane offset word is 1 in lanes 64–127 and 0 in lanes 0–63. -/
theorem laneOffset_toNat (l : Fin 128) : (k0_pay4 (ix2 (0 : Fin 1) l)).toNat = if 64 ≤ l.val then 1 else 0 := by
  have hl := l.isLt
  have ha : (BitVec.ofNat 32 l.val).toNat = l.val := by rw [BitVec.toNat_ofNat]; omega
  have e : k0_pay4 (ix2 (0 : Fin 1) l) = (IntOp.cmpi .sge (BitVec.ofNat 32 l.val) 64#32).setWidth 32 := by
    unfold k0_pay4
    show (IntOp.cmpi .sge (iota .tc S1x128 32 [1] iota_S1x128_d1_w32 (ix2 (0 : Fin 1) l)) 64#32).setWidth 32 = _
    rw [iota_single_apply]
  rw [e, StableHlo.Predicate.toNat_setWidth_bit]
  have hc : IntOp.cmpi .sge (BitVec.ofNat 32 l.val) 64#32 = 1#1 ↔ 64 ≤ l.val := by
    rw [StableHlo.Predicate.sge_iff_toNat (by rw [ha]; omega) (by decide), ha]; rfl
  by_cases h : 64 ≤ l.val
  · rw [if_pos h, if_pos (hc.mpr h)]
  · rw [if_neg h, if_neg (fun h' => h (hc.mp h'))]

/-- The mask of a pair with threshold `thr`: set at row `r`, lane `l` exactly when `r + l / 64 < thr`. -/
theorem mask_apply (thr : BitVec 32) (hthr : thr.toNat ≤ 2048) (r : Fin 2048) (l : Fin 128) :
    cmpi .slt (addi (broadcastTo S2048x128 (iota .tc S2048x1 32 [0] iota_S2048x1_d0_w32) broadcasts_S2048x1_S2048x128)
        (broadcastTo S2048x128 k0_pay4 broadcasts_S1x128_S2048x128)) (broadcast S2048x128 thr) (ix2 r l) = 1#1
      ↔ r.val + l.val / 64 < thr.toNat := by
  have hr := r.isLt
  have hl := l.isLt
  have e1 : broadcastTo S2048x128 (iota .tc S2048x1 32 [0] iota_S2048x1_d0_w32) broadcasts_S2048x1_S2048x128 (ix2 r l)
      = BitVec.ofNat 32 r.val := by
    refine (broadcastTo_apply (s := S2048x1) (t := S2048x128) _ _ (ix2 r l) (ix2 r (0 : Fin 1)) ?_).trans
      (iota_single_apply _ _ _ _ _ _)
    intro a
    match a with
    | ⟨0, _⟩ => show r.val = if (2048 : Nat) = 1 then 0 else r.val; rw [if_neg (by decide)]
    | ⟨1, _⟩ => show (0 : Nat) = if (1 : Nat) = 1 then 0 else l.val; rw [if_pos rfl]
  have e2 : broadcastTo S2048x128 k0_pay4 broadcasts_S1x128_S2048x128 (ix2 r l) = k0_pay4 (ix2 (0 : Fin 1) l) := by
    refine broadcastTo_apply (s := S1x128) (t := S2048x128) _ _ (ix2 r l) (ix2 (0 : Fin 1) l) ?_
    intro a
    match a with
    | ⟨0, _⟩ => show (0 : Nat) = if (1 : Nat) = 1 then 0 else r.val; rw [if_pos rfl]
    | ⟨1, _⟩ => show l.val = if (128 : Nat) = 1 then 0 else l.val; rw [if_neg (by decide)]
  show IntOp.cmpi .slt (IntOp.addi (broadcastTo S2048x128 (iota .tc S2048x1 32 [0] iota_S2048x1_d0_w32) broadcasts_S2048x1_S2048x128 (ix2 r l))
      (broadcastTo S2048x128 k0_pay4 broadcasts_S1x128_S2048x128 (ix2 r l))) thr = 1#1 ↔ _
  rw [e1, e2]
  have ho := laneOffset_toNat l
  have hsum : (IntOp.addi (BitVec.ofNat 32 r.val) (k0_pay4 (ix2 (0 : Fin 1) l))).toNat = r.val + l.val / 64 := by
    unfold IntOp.addi
    rw [BitVec.toNat_add, BitVec.toNat_ofNat, ho]
    split <;> omega
  rw [StableHlo.Predicate.slt_iff_toNat (by rw [hsum]; omega) (by omega), hsum]

/-! ## One stored pair -/

section PairDef
variable {F : FTy → Type} [FloatOps F]

/-- The pair stored with rotation amount `amt` and threshold `thr`, as one term of the loaded block. -/
def pairOf (amt thr : BitVec 32) (x0 : Vec F S1x2048x64 .f32) : FVec F S1x2048x128 .f32 :=
  shapeCast S1x2048x128
    (select (cmpi .slt (addi (broadcastTo S2048x128 (iota .tc S2048x1 32 [0] iota_S2048x1_d0_w32) broadcasts_S2048x1_S2048x128)
        (broadcastTo S2048x128 k0_pay4 broadcasts_S1x128_S2048x128)) (broadcast S2048x128 thr))
      (dynamicRotate 0 amt none (k0_pay5 x0) rotates_S2048x128_d0)
      (broadcast S2048x128 (Scalar.ofBits .f32 0x00000000#32)))
    shapeCasts_S2048x128_S1x2048x128

/-- Each of the eight stored values is that term at its own amount and threshold (the amounts are 2048 − 2 j
    modulo 2048, the thresholds 2048 − 2 j). -/
theorem pay6_eq (x0 : Vec F S1x2048x64 .f32) : k0_pay6 x0 = pairOf 0#32 2048#32 x0 := rfl
theorem pay7_eq (x0 : Vec F S1x2048x64 .f32) : k0_pay7 x0 = pairOf 2046#32 2046#32 x0 := rfl
theorem pay10_eq (x0 : Vec F S1x2048x64 .f32) :
    k0_pay10 (k0_pay8 x0) k0_pay9 (Scalar.ofBits .f32 0x00000000#32) = pairOf 2044#32 2044#32 x0 := rfl
theorem pay11_eq (x0 : Vec F S1x2048x64 .f32) :
    k0_pay11 (iota .tc S2048x1 32 [0] iota_S2048x1_d0_w32) k0_pay4 (k0_pay5 x0) = pairOf 2042#32 2042#32 x0 := rfl
theorem pay12_eq (x0 : Vec F S1x2048x64 .f32) :
    k0_pay12 (iota .tc S2048x1 32 [0] iota_S2048x1_d0_w32) k0_pay4 (k0_pay5 x0) = pairOf 2040#32 2040#32 x0 := rfl
theorem pay1_eq (x0 : Vec F S1x2048x64 .f32) :
    k0_pay1 (k0_pay13 (iota .tc S2048x1 32 [0] iota_S2048x1_d0_w32) k0_pay4 (k0_pay5 x0)) = pairOf 2038#32 2038#32 x0 := rfl
theorem pay2_eq (x0 : Vec F S1x2048x64 .f32) :
    k0_pay2 (iota .tc S2048x1 32 [0] iota_S2048x1_d0_w32) k0_pay4 (k0_pay5 x0) = pairOf 2036#32 2036#32 x0 := rfl
theorem pay3_eq (x0 : Vec F S1x2048x64 .f32) :
    k0_pay3 (iota .tc S2048x1 32 [0] iota_S2048x1_d0_w32) k0_pay4 (k0_pay5 x0) = pairOf 2034#32 2034#32 x0 := rfl

/-- The loaded block seen as [2048, 64] reads row `r`, feature `f` of the block. -/
theorem rows_apply (x0 : Vec F S1x2048x64 .f32) (r : Fin 2048) (f : Fin 64) :
    shapeCast S2048x64 x0 shapeCasts_S1x2048x64_S2048x64 (ix2 r f) = x0 (ix3 (0 : Fin 1) r f) := by
  refine (shapeCast_dropUnit_apply (n := 2) ![2048, 64] x0 shapeCasts_S1x2048x64_S2048x64 (ix2 r f)).trans ?_
  refine congrArg x0 (funext fun a => ?_)
  match a with
  | ⟨0, _⟩ => rfl
  | ⟨1, _⟩ => rfl
  | ⟨2, _⟩ => rfl

/-- THE PAIR AT AN INDEX. With `k = 2 j` the pair's first window offset (threshold 2048 − k, amount 2048 − k modulo
    2048): lane `l` of row `r` is the block's entry at row `r + k + l / 64`, feature `l % 64`, when that row exists,
    and the zero word when it does not. -/
theorem pairOf_apply (amt thr : BitVec 32) (k : Nat) (hk : k ≤ 14) (hthr : thr.toNat = 2048 - k)
    (hamt : amt.toNat % 2048 = (2048 - k) % 2048) (x0 : Vec F S1x2048x64 .f32) (r : Fin 2048) (l : Fin 128) :
    pairOf amt thr x0 (ix3 (0 : Fin 1) r l)
      = if h : r.val + (k + l.val / 64) < 2048 then
          x0 (ix3 (0 : Fin 1) ⟨r.val + (k + l.val / 64), h⟩ ⟨l.val % 64, Nat.mod_lt _ (by decide)⟩)
        else Scalar.ofBits .f32 0x00000000#32 := by
  have hr := r.isLt
  have hl := l.isLt
  unfold pairOf
  refine (shapeCast_addUnit_apply (n := 2) ![2048, 128] _ shapeCasts_S2048x128_S1x2048x128 (ix3 (0 : Fin 1) r l)).trans ?_
  have ej : (fun a : Fin 2 => (ix3 (0 : Fin 1) r l) a.succ) = ix2 r l := by
    funext a
    match a with
    | ⟨0, _⟩ => rfl
    | ⟨1, _⟩ => rfl
  rw [ej, select_apply]
  by_cases hm : r.val + l.val / 64 < thr.toNat
  · rw [(mask_apply thr (by omega) r l).mpr hm, select_one, dif_pos (by omega)]
    refine (dynamicRotate_apply (s := S2048x128) 0 amt (k0_pay5 x0) rotates_S2048x128_d0 (ix2 r l)
      (ix2 (⟨r.val + k, by omega⟩ : Fin 2048) l) ?_).trans ?_
    · intro b
      match b with
      | ⟨0, _⟩ =>
        show r.val + k = if (0 : Fin 2) = 0 then (r.val + 2048 - amt.toNat % 2048) % 2048 else r.val
        rw [if_pos rfl, hamt]
        omega
      | ⟨1, _⟩ => rfl
    · show twoRows (shapeCast S2048x64 x0 shapeCasts_S1x2048x64_S2048x64) (ix2 (⟨r.val + k, by omega⟩ : Fin 2048) l) = _
      by_cases h64 : l.val < 64
      · rw [twoRows_low _ _ _ h64, rows_apply]
        refine congrArg x0 (funext fun a => ?_)
        match a with
        | ⟨0, _⟩ => rfl
        | ⟨1, _⟩ => exact Fin.ext (by show r.val + k = r.val + (k + l.val / 64); omega)
        | ⟨2, _⟩ => exact Fin.ext (by show l.val = l.val % 64; omega)
      · rw [twoRows_high _ _ _ (by omega), rows_apply]
        refine congrArg x0 (funext fun a => ?_)
        match a with
        | ⟨0, _⟩ => rfl
        | ⟨1, _⟩ => exact Fin.ext (by show (r.val + k + 1) % 2048 = r.val + (k + l.val / 64); omega)
        | ⟨2, _⟩ => exact Fin.ext (by show l.val - 64 = l.val % 64; omega)
  · have hz : cmpi .slt (addi (broadcastTo S2048x128 (iota .tc S2048x1 32 [0] iota_S2048x1_d0_w32) broadcasts_S2048x1_S2048x128)
        (broadcastTo S2048x128 k0_pay4 broadcasts_S1x128_S2048x128)) (broadcast S2048x128 thr) (ix2 r l) = 0#1 :=
      eq_zero_of_ne_one (fun h1 => hm ((mask_apply thr (by omega) r l).mp h1))
    rw [hz, select_zero, dif_neg (by omega)]
    rfl

end PairDef

end Cert.KernelIdeal.Body

end
-- ==== Proof.Spec.lean ====
/-
  The sliding-window unfold, as one function of the whole argument array.

  For an array `x` of shape [32, 2048, 64] and a fill value `z`, the result of shape [32, 2048, 16, 64] holds at
  (b, s, w, f) the entry `x (b, s + w, f)` when row `s + w` exists (`s + w < 2048`) and `z` otherwise: window `s`
  is the 16 rows starting at row `s`, and the windows that run past the last row are filled with `z`.

  The same function is also stated on the flat layout [32, 2048, 1024] the kernel writes, where the last two
  axes (w, f) are one axis of extent 16 * 64 read as `L = 64 * w + f`.
-/
import Idealize.ShloMosaic.PureOps
import Idealize.ShloMosaic.Lib.ValueIdx

namespace Cert.Unfold

open Idealize.ShloMosaic Idealize.ShloMosaic.ValueIdx

variable {α : Type}

/-- The unfold on the result's own shape: entry (b, s, w, f) is `x (b, s + w, f)` if row `s + w` exists, else `z`. -/
def windows (z : α) (x : (⟨3, ![32, 2048, 64]⟩ : Shape).Idx → α) : (⟨4, ![32, 2048, 16, 64]⟩ : Shape).Idx → α :=
  fun i => if h : (i 1).val + (i 2).val < 2048 then x (ix3 (i 0) ⟨(i 1).val + (i 2).val, h⟩ (i 3)) else z

/-- The unfold at explicit coordinates. -/
theorem windows_apply (z : α) (x : (⟨3, ![32, 2048, 64]⟩ : Shape).Idx → α) (b : Fin 32) (s : Fin 2048) (w : Fin 16) (f : Fin 64) :
    windows z x (ix4 b s w f) = if h : s.val + w.val < 2048 then x (ix3 b ⟨s.val + w.val, h⟩ f) else z := rfl

/-- The same array with the window axis and the feature axis flattened to one axis of extent 1024:
    entry (b, s, L) is the unfold's entry (b, s, L / 64, L % 64). -/
def windowsFlat (z : α) (x : (⟨3, ![32, 2048, 64]⟩ : Shape).Idx → α) : (⟨3, ![32, 2048, 1024]⟩ : Shape).Idx → α :=
  fun i => if h : (i 1).val + (i 2).val / 64 < 2048 then
      x (ix3 (i 0) ⟨(i 1).val + (i 2).val / 64, h⟩ ⟨(i 2).val % 64, Nat.mod_lt _ (by decide)⟩)
    else z

/-- The flat form at explicit coordinates. -/
theorem windowsFlat_apply (z : α) (x : (⟨3, ![32, 2048, 64]⟩ : Shape).Idx → α) (b : Fin 32) (s : Fin 2048) (L : Fin 1024) :
    windowsFlat z x (ix3 b s L) = if h : s.val + L.val / 64 < 2048 then
      x (ix3 b ⟨s.val + L.val / 64, h⟩ ⟨L.val % 64, Nat.mod_lt _ (by decide)⟩) else z := rfl

/-- Reading the flat form at `L = 64 * w + f` is the unfold at (w, f). -/
theorem windowsFlat_at (z : α) (x : (⟨3, ![32, 2048, 64]⟩ : Shape).Idx → α) (b : Fin 32) (s : Fin 2048) (w : Fin 16) (f : Fin 64)
    (L : Fin 1024) (hL : L.val = 64 * w.val + f.val) :
    windowsFlat z x (ix3 b s L) = windows z x (ix4 b s w f) := by
  have hw : L.val / 64 = w.val := by have := f.isLt; omega
  have hf : L.val % 64 = f.val := by have := f.isLt; omega
  rw [windowsFlat_apply, windows_apply]
  by_cases h : s.val + w.val < 2048
  · rw [dif_pos h, dif_pos (by rw [hw]; exact h)]
    congr 1
    funext a
    match a with
    | ⟨0, _⟩ => rfl
    | ⟨1, _⟩ => exact Fin.ext (by show s.val + L.val / 64 = s.val + w.val; rw [hw])
    | ⟨2, _⟩ => exact Fin.ext hf
  · rw [dif_neg h, dif_neg (by rw [hw]; exact h)]

end Cert.Unfold
-- ==== Proof.Block.lean ====
/-
  What the body leaves in the output block, and the block as a piece of the whole result.

  The eight stored pairs tile the [1, 2048, 1024] output block along its last axis: pair `j` fills lanes
  `128 j … 128 j + 127`. Lane `L = 128 j + l` of row `r` therefore holds the loaded block's entry at row
  `r + L / 64`, feature `L % 64` when that row exists and zero otherwise, since `2 j + l / 64 = L / 64` and
  `l % 64 = L % 64`: the block is one function of the loaded block, whichever pair a lane belongs to.
-/
import proofs.«418246_j13022340841695_3_alg».proof.Proof.Gen.KernelIdeal.Frame
import proofs.«418246_j13022340841695_3_alg».proof.Proof.Pair
import proofs.«418246_j13022340841695_3_alg».proof.Proof.Spec

set_option maxRecDepth 16384

noncomputable section

namespace Cert.KernelIdeal.Body

open Idealize.ShloMosaic Idealize.ShloMosaic.ValueIdx Cert.KernelIdeal Cert.KernelIdeal.Gen

/-! ## Reading a block or the array at natural-number coordinates -/

section Reader
variable {α : Type}

/-- Entry (ρ, f) of a [1, 2048, 64] block, or `z` when there is no such entry. -/
def blockRow (z : α) (x0 : S1x2048x64.Idx → α) (ρ f : Nat) : α :=
  if h : ρ < 2048 ∧ f < 64 then x0 (ix3 (0 : Fin 1) ⟨ρ, h.1⟩ ⟨f, h.2⟩) else z

/-- Entry (b, ρ, f) of the [32, 2048, 64] array, or `z` when there is no such entry. -/
def arrRow (z : α) (x : S32x2048x64.Idx → α) (b ρ f : Nat) : α :=
  if h : b < 32 ∧ ρ < 2048 ∧ f < 64 then x (ix3 ⟨b, h.1⟩ ⟨ρ, h.2.1⟩ ⟨f, h.2.2⟩) else z

/-- A block that is batch element `tb` of the array reads as the array does at that batch element. -/
theorem blockRow_eq_arrRow (z : α) (x : S32x2048x64.Idx → α) (blk : S1x2048x64.Idx → α) (tb : Nat) (htb : tb < 32)
    (hblk : ∀ (ρ : Fin 2048) (f : Fin 64), blk (ix3 (0 : Fin 1) ρ f) = x (ix3 ⟨tb, htb⟩ ρ f)) (ρ f : Nat) :
    blockRow z blk ρ f = arrRow z x tb ρ f := by
  unfold blockRow arrRow
  by_cases h : ρ < 2048 ∧ f < 64
  · rw [dif_pos h, dif_pos ⟨htb, h⟩]
    exact hblk _ _
  · rw [dif_neg h, dif_neg (fun h' => h h'.2)]

/-- The flat unfold of the specification is the array read at row `s + L / 64`, feature `L % 64`. -/
theorem windowsFlat_eq_arrRow (z : α) (x : S32x2048x64.Idx → α) (i : S32x2048x1024.Idx) :
    Cert.Unfold.windowsFlat z x i = arrRow z x (i 0).val ((i 1).val + (i 2).val / 64) ((i 2).val % 64) := by
  have h0 : (i 0).val < 32 := (i 0).isLt
  unfold Cert.Unfold.windowsFlat arrRow
  by_cases h : (i 1).val + (i 2).val / 64 < 2048
  · rw [dif_pos h, dif_pos ⟨h0, h, Nat.mod_lt _ (by decide)⟩]
    rfl
  · rw [dif_neg h, dif_neg (fun h' => h h'.2.1)]

end Reader

section Body
variable {F : FTy → Type} [FloatOps F]

/-- A stored pair at an index, by natural-number coordinates. -/
theorem pairOf_row (amt thr : BitVec 32) (k : Nat) (hk : k ≤ 14) (hthr : thr.toNat = 2048 - k)
    (hamt : amt.toNat % 2048 = (2048 - k) % 2048) (x0 : Vec F S1x2048x64 .f32) (r : Fin 2048) (l : Fin 128) :
    pairOf amt thr x0 (ix3 (0 : Fin 1) r l)
      = blockRow (Scalar.ofBits .f32 0x00000000#32) x0 (r.val + (k + l.val / 64)) (l.val % 64) := by
  rw [pairOf_apply amt thr k hk hthr hamt]
  unfold blockRow
  by_cases h : r.val + (k + l.val / 64) < 2048
  · rw [dif_pos h, dif_pos ⟨h, Nat.mod_lt _ (by decide)⟩]
  · rw [dif_neg h, dif_neg (fun h' => h h'.1)]

/-- The output block after the body, as one function of the loaded block. -/
def blockOf (x0 : Vec F S1x2048x64 .f32) : Vec F S1x2048x1024 .f32 :=
  fun y => blockRow (Scalar.ofBits .f32 0x00000000#32) x0 ((y 1).val + (y 2).val / 64) ((y 2).val % 64)

/-- Pair `j`, stored at lane offset `128 j`, is the restriction of that function to its lanes. -/
theorem piece_eq (amt thr : BitVec 32) (j : Nat) (hj : j ≤ 7) (hthr : thr.toNat = 2048 - 2 * j)
    (hamt : amt.toNat % 2048 = (2048 - 2 * j) % 2048) (off : Nat) (hoff : off = 128 * j)
    (inb : ∀ a, (![0, 0, off] : Fin 3 → Nat) a + S1x2048x128.size a ≤ S1x2048x1024.size a)
    (x0 : Vec F S1x2048x64 .f32) (x : S1x2048x128.Idx) :
    pairOf amt thr x0 x = blockOf x0 ((Rect.unit (s := S1x2048x1024) ![0, 0, off] S1x2048x128.size inb).emb x) := by
  subst hoff
  obtain ⟨u, r, l, rfl⟩ : ∃ (u : Fin 1) (r : Fin 2048) (l : Fin 128), x = ix3 u r l := ⟨x 0, x 1, x 2, eq_ix3 x⟩
  obtain rfl : u = 0 := Subsingleton.elim _ _
  have hl := l.isLt
  rw [pairOf_row amt thr (2 * j) (by omega) hthr hamt]
  show _ = blockRow _ x0 ((0 + 1 * r.val) + (128 * j + 1 * l.val) / 64) ((128 * j + 1 * l.val) % 64)
  congr 1 <;> omega

theorem hz0 : (![0, 0, 0] : Fin 3 → Nat) = fun _ => 0 := funext fun a => by fin_cases a <;> rfl

/-- Eight pieces at the eight lane offsets whose payloads each restrict one function `G` of the block index. -/
theorem pieces_restrict (G : Vec F S1x2048x1024 .f32)
    (p0 p1 p2 p3 p4 p5 p6 p7 : Vec F S1x2048x128 .f32)
    (h0 : ∀ x, p0 x = G (r0_8.emb x)) (h1 : ∀ x, p1 x = G (r0_7.emb x)) (h2 : ∀ x, p2 x = G (r0_6.emb x))
    (h3 : ∀ x, p3 x = G (r0_5.emb x)) (h4 : ∀ x, p4 x = G (r0_4.emb x)) (h5 : ∀ x, p5 x = G (r0_3.emb x))
    (h6 : ∀ x, p6 x = G (r0_2.emb x)) (h7 : ∀ x, p7 x = G (r0_1.emb x)) :
    ∀ p ∈ ([⟨r0_8, p0⟩, ⟨r0_7, p1⟩, ⟨r0_6, p2⟩, ⟨r0_5, p3⟩, ⟨r0_4, p4⟩, ⟨r0_3, p5⟩, ⟨r0_2, p6⟩, ⟨r0_1, p7⟩] :
      List (View.Piece (Elt F) S1x2048x1024 .f32)), ∀ x : p.1.shape.Idx, p.2 x = G (p.1.emb x) := by
  intro p hp
  simp only [List.mem_cons, List.mem_nil_iff, or_false] at hp
  rcases hp with rfl | rfl | rfl | rfl | rfl | rfl | rfl | rfl
  · exact h0
  · exact h1
  · exact h2
  · exact h3
  · exact h4
  · exact h5
  · exact h6
  · exact h7

/-- THE BLOCK: the canonical contents after the eight stores are `blockOf` of the loaded block. -/
theorem out_eq (x0 : Vec F S1x2048x64 .f32) : out0_1 x0 = blockOf x0 := by
  funext y
  unfold out0_1
  simp only [View.ld_unit_zero (S := S1x2048x64) hz0]
  rw [pay3_eq, pay2_eq, pay1_eq, pay12_eq, pay11_eq, pay10_eq, pay7_eq, pay6_eq]
  exact View.canon_apply_of_pieces (blockOf x0) _
    (pieces_restrict (blockOf x0) (pairOf 2034#32 2034#32 x0) (pairOf 2036#32 2036#32 x0) (pairOf 2038#32 2038#32 x0)
      (pairOf 2040#32 2040#32 x0) (pairOf 2042#32 2042#32 x0) (pairOf 2044#32 2044#32 x0) (pairOf 2046#32 2046#32 x0)
      (pairOf 0#32 2048#32 x0)
      (fun x => piece_eq 2034#32 2034#32 7 (by decide) (by decide) (by decide) 896 (by decide) inb_S1x2048x1024_S1x2048x128_0_0_896 x0 x)
      (fun x => piece_eq 2036#32 2036#32 6 (by decide) (by decide) (by decide) 768 (by decide) inb_S1x2048x1024_S1x2048x128_0_0_768 x0 x)
      (fun x => piece_eq 2038#32 2038#32 5 (by decide) (by decide) (by decide) 640 (by decide) inb_S1x2048x1024_S1x2048x128_0_0_640 x0 x)
      (fun x => piece_eq 2040#32 2040#32 4 (by decide) (by decide) (by decide) 512 (by decide) inb_S1x2048x1024_S1x2048x128_0_0_512 x0 x)
      (fun x => piece_eq 2042#32 2042#32 3 (by decide) (by decide) (by decide) 384 (by decide) inb_S1x2048x1024_S1x2048x128_0_0_384 x0 x)
      (fun x => piece_eq 2044#32 2044#32 2 (by decide) (by decide) (by decide) 256 (by decide) inb_S1x2048x1024_S1x2048x128_0_0_256 x0 x)
      (fun x => piece_eq 2046#32 2046#32 1 (by decide) (by decide) (by decide) 128 (by decide) inb_S1x2048x1024_S1x2048x128_0_0_128 x0 x)
      (fun x => piece_eq 0#32 2048#32 0 (by decide) (by decide) (by decide) 0 (by decide) inb_S1x2048x1024_S1x2048x128_0_0_0 x0 x))
    y (cover0_1 _ _ _ _ _ _ _ _ y)

end Body

end Cert.KernelIdeal.Body

end
-- ==== Proof.Result.lean ====
/-
  The kernel's result array.

  Grid point `t` stages batch element `t` of the input and writes back batch element `t` of the flat
  [32, 2048, 1024] output; what it writes back is the block function of the previous module applied to batch
  element `t`, which is batch element `t` of the flat unfold of the whole input. The 32 blocks tile the output, so
  the output array after the region is the flat unfold. The host reshape after the region splits the last axis
  1024 = 16 * 64, and the flat unfold read at `64 w + f` is the unfold at (w, f).
-/
import proofs.«418246_j13022340841695_3_alg».proof.Proof.Gen.KernelIdeal.Frame
import proofs.«418246_j13022340841695_3_alg».proof.Proof.Block
import Idealize.ShloMosaic.Lib.StableHlo.Run

set_option maxRecDepth 16384

noncomputable section

namespace Cert.KernelIdeal.Body

open Idealize.ShloMosaic Idealize.ShloMosaic.TcCoe Idealize.ShloMosaic.ValueIdx Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The zero word the body fills with. -/
abbrev zeroW : F .f32 := Scalar.ofBits .f32 0x00000000#32

/-- The input array as the region finds it, and its block at a grid point, at their literal types. -/
abbrev xarr (c : Dev nD) : Vec F S32x2048x64 .f32 := V m c main_arg0
abbrev xblk (c : Dev nD) (t : Fin cfg0.N) : Vec F S1x2048x64 .f32 := iblk m c 0 t

/-- The index maps over the grid: both windows are at batch element `t`, at the start of the other two axes. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem point_lt (t : Fin cfg0.N) : t.val < 32 := Nat.lt_of_lt_of_eq t.isLt N_0

/-- The input block at point `t` is batch element `t` of the input array. -/
theorem xblk_apply (c : Dev nD) (t : Fin cfg0.N) (r : Fin 2048) (f : Fin 64) :
    xblk m c t (ix3 (0 : Fin 1) r f) = xarr m c (ix3 ⟨t.val, point_lt t⟩ r f) := by
  obtain ⟨e0, e1, e2, -, -, -⟩ := idx_facts t
  show V m c main_arg0 (((cfg0.win 0).blk t).view.emb (ix3 (0 : Fin 1) r f)) = V m c main_arg0 _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 64 + 1 * f.val = f.val; omega

/-- WHAT POINT `t` WRITES BACK is block `t` of the flat unfold of the input array. -/
theorem flushed_eq (c : Dev nD) (t : Fin cfg0.N) :
    (dats m 0 c).flushed 1 t
      = ((cfg0.win 1).blk t).view.read (Elt F) (Cert.Unfold.windowsFlat (zeroW (F := F)) (xarr m c)) := by
  show (cfg0.win 1).cut (grid0.coords t) ((dats m 0 c).after 1 t) = _
  rw [after0_1, out_eq]
  obtain ⟨-, -, -, e0, e1, e2⟩ := idx_facts t
  funext y
  have hy0 : (y 0).val < 1 := (y 0).isLt
  show blockRow (zeroW (F := F)) (xblk m c t) ((y 1).val + (y 2).val / 64) ((y 2).val % 64)
    = Cert.Unfold.windowsFlat (zeroW (F := F)) (xarr m c) (((cfg0.win 1).blk t).view.emb y)
  rw [windowsFlat_eq_arrRow, blockRow_eq_arrRow (zeroW (F := F)) (xarr m c) (xblk m c t) t.val (point_lt t) (xblk_apply m c t)]
  have h0 : ((((cfg0.win 1).blk t).view.emb y) 0).val = t.val := by
    show win0_1.index t (0 : Fin 3) * 1 + 1 * (y 0).val = t.val; omega
  have h1 : ((((cfg0.win 1).blk t).view.emb y) 1).val = (y 1).val := by
    show win0_1.index t (1 : Fin 3) * 2048 + 1 * (y 1).val = (y 1).val; omega
  have h2 : ((((cfg0.win 1).blk t).view.emb y) 2).val = (y 2).val := by
    show win0_1.index t (2 : Fin 3) * 1024 + 1 * (y 2).val = (y 2).val; omega
  rw [h0, h1, h2]

/-- An index of the flat output is in point `t`'s block iff each coordinate is in the block's range. -/
theorem mem_blk (t : Fin cfg0.N) (i : S32x2048x1024.Idx) :
    i ∈ ((cfg0.win 1).blk t).view.set ↔ ∀ a : Fin 3, win0_1.index t a * S1x2048x1024.size a ≤ (i a).val
      ∧ (i a).val < win0_1.index t a * S1x2048x1024.size a + S1x2048x1024.size a := by
  show i ∈ ((View.whole main_v0).slice (win0_1.rect t)).set ↔ _
  rw [View.set_slice_whole, Rect.mem_set_unit]
  exact Iff.rfl

/-- Every index of the flat output is in the block of the point of its batch element. -/
theorem cover (i : S32x2048x1024.Idx) :
    ∃ t : Fin cfg0.N, (cfg0.win 1).flush t = true ∧ i ∈ ((cfg0.win 1).blk t).view.set := by
  have hi0 : (i 0).val < 32 := (i 0).isLt
  have hi1 : (i 1).val < 2048 := (i 1).isLt
  have hi2 : (i 2).val < 1024 := (i 2).isLt
  refine ⟨⟨(i 0).val, Nat.lt_of_lt_of_eq hi0 N_0.symm⟩, flush0_1 _, ?_⟩
  obtain ⟨-, -, -, e0', e1, e2⟩ := idx_facts ⟨(i 0).val, Nat.lt_of_lt_of_eq hi0 N_0.symm⟩
  have e0 : win0_1.index ⟨(i 0).val, Nat.lt_of_lt_of_eq hi0 N_0.symm⟩ (0 : Fin 3) = (i 0).val := e0'
  rw [mem_blk]
  intro a
  match a with
  | ⟨0, _⟩ =>
    show win0_1.index ⟨(i 0).val, _⟩ (0 : Fin 3) * 1 ≤ (i 0).val ∧ (i 0).val < win0_1.index ⟨(i 0).val, _⟩ (0 : Fin 3) * 1 + 1
    rw [e0]; omega
  | ⟨1, _⟩ =>
    show win0_1.index ⟨(i 0).val, _⟩ (1 : Fin 3) * 2048 ≤ (i 1).val ∧ (i 1).val < win0_1.index ⟨(i 0).val, _⟩ (1 : Fin 3) * 2048 + 2048
    rw [e1]; omega
  | ⟨2, _⟩ =>
    show win0_1.index ⟨(i 0).val, _⟩ (2 : Fin 3) * 1024 ≤ (i 2).val ∧ (i 2).val < win0_1.index ⟨(i 0).val, _⟩ (2 : Fin 3) * 1024 + 1024
    rw [e2]; omega

/-- THE FLAT OUTPUT after the region is the flat unfold of the input array. -/
theorem final (c : Dev nD) :
    (dats m 0 c).arrAt 1 cfg0.N = Cert.Unfold.windowsFlat (zeroW (F := F)) (xarr m c) :=
  (dats m 0 c).arrAt_eq_of_cover 1 (Cert.Unfold.windowsFlat (zeroW (F := F)) (xarr m c)) (fun t _ => flushed_eq m c t) cover

/-! ## The host reshape after the region, and the run -/

/-- The flat position `64 w + f` on the last axis. -/
theorem flat_lt (w : Fin 16) (f : Fin 64) : 64 * w.val + f.val < 1024 := by
  have := w.isLt; have := f.isLt; omega

/-- THE RESULT: what the lines after the region leave in @main's result is the unfold of the input array. -/
theorem tail_eq (c : Dev nD) :
    Pipeline.afterTail₀ cfgs (dats m) 0 (V0 m) [hostOps1] c main_v1
      = Cert.Unfold.windows (zeroW (F := F)) (m ((c : Thread nD τ).loc main_arg0)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0)
      = Cert.Unfold.windowsFlat (zeroW (F := F)) (xarr m c) :=
    (Pipeline.withArrays_arr spec0 launch0.win.arr_inj c (V0 m c) (fun w => (dats m 0 c).arrAt w cfg0.N) 1).trans (final m c)
  funext i
  show shapeCast S32x2048x16x64 (Pipeline.withArrays (cfgs 0).spec c (V0 m c) (fun w => (dats m 0 c).arrAt w (cfgs 0).N)
    (Proc.devRef .tc main_v0)) shapeCasts_S32x2048x1024_S32x2048x16x64 i = _
  rw [hA]
  obtain ⟨b, s, w, f, rfl⟩ : ∃ (b : Fin 32) (s : Fin 2048) (w : Fin 16) (f : Fin 64), i = ix4 b s w f :=
    ⟨i 0, i 1, i 2, i 3, eq_ix4 i⟩
  rw [shapeCast_apply _ _ (ix4 b s w f) (ix3 b s (⟨64 * w.val + f.val, flat_lt w f⟩ : Fin 1024)) (by
    rw [Shape.rowMajor_val_three, Shape.rowMajor_val_four]
    show (b.val * 2048 + s.val) * 1024 + (64 * w.val + f.val) = ((b.val * 2048 + s.val) * 16 + w.val) * 64 + f.val
    omega)]
  exact Cert.Unfold.windowsFlat_at _ _ b s w f ⟨64 * w.val + f.val, flat_lt w f⟩ rfl

/-- @main's result buffer is no window's array and is not scoped: the frame run states its contents. -/
theorem result_mem_rest : main_v1 ∈ Pipeline.restRefs sig (cfgs 0).spec :=
  Pipeline.mem_restRefs_of main_v1 rfl (fun w => by fin_cases w <;> decide)

/-- THE RUN, READ: every weakly fair execution of @main terminates with the result at the unfold of the argument
    array and the argument unchanged. -/
theorem run : θ_run defs (onTc (τ := τ) (main (F := F))) ⟨m, fun _ => 0, ρ⟩ fun r => ∀ c : Dev nD,
      r.2.mem ((c : Thread nD τ).loc main_v1) = Cert.Unfold.windows (zeroW (F := F)) (m ((c : Thread nD τ).loc main_arg0))
      ∧ r.2.mem ((c : Thread nD τ).loc main_arg0) = m ((c : Thread nD τ).loc main_arg0) :=
  (θ_run defs _ _).mono (fun r h c => ⟨((h c).2 main_v1 result_mem_rest).trans (tail_eq m c),
      ((h c).1 0).trans (((dats m 0 c).arrAt_in 0 rfl _).trans ((A_eq m c 0).trans (V_main_arg0 m c)))⟩)
    (run_main m ρ)

end Cert.KernelIdeal.Body

end
-- ==== Proof.RefValue.lean ====
/-
  The reference program read at an index: its result is the sliding-window unfold of its argument.

  The program pads the input of shape [32, 2048, 64] with 15 rows of the fill value (the integer 0 converted to a
  float) after the last row of axis 1, builds the start indices s + w (s < 2048, w < 16) as 32-bit words, wraps the
  negative ones by 2063 (none is negative), and gathers: result entry (b, s, w, f) is the padded array at
  (b, k, f), where k is the start index at (s, w) read signed and clamped into [0, 2063 - 1]. Since
  s + w ≤ 2047 + 15 = 2062, the clamp leaves it, and the padded array at row s + w is the input there when
  s + w < 2048 and the fill value otherwise. At the extended reals the fill value is 0.
-/
import proofs.«418246_j13022340841695_3_alg».proof.Proof.Gen.ReferenceIdeal.Read
import proofs.«418246_j13022340841695_3_alg».proof.Proof.Spec
import Idealize.ShloMosaic.Lib.ValueIdx
import Idealize.ShloMosaic.Lib.KernelVsHost
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The sum of two small naturals as 32-bit words, read signed, is the sum. -/
theorem word_toInt_toNat (a b : Nat) (ha : a < 2048) (hb : b < 16) :
    (BitVec.ofNat 32 a + BitVec.ofNat 32 b).toInt.toNat = a + b := by
  rw [← BitVec.ofNat_add, BitVec.toInt_eq_toNat_cond, BitVec.toNat_ofNat]
  omega

/-- … and it is not negative read signed. -/
theorem word_not_slt (a b : Nat) (ha : a < 2048) (hb : b < 16) :
    IntOp.cmpi .slt (BitVec.ofNat 32 a + BitVec.ofNat 32 b) 0#32 = 0#1 := by
  show BitVec.ofBool ((BitVec.ofNat 32 a + BitVec.ofNat 32 b).slt 0#32) = 0#1
  have : (BitVec.ofNat 32 a + BitVec.ofNat 32 b).slt 0#32 = false := by
    rw [BitVec.slt_eq_decide, ← BitVec.ofNat_add, BitVec.toInt_eq_toNat_cond, BitVec.toNat_ofNat]
    simp only [BitVec.toInt_zero, decide_eq_false_iff_not]
    omega
  rw [this]; rfl

/-- The start index at (s, w, 0): the word s + w. -/
theorem v13_apply (s : Fin 2048) (w : Fin 16) (z : Fin 1) :
    val_main_v13 (F := F) (ix3 s w z) = BitVec.ofNat 32 s.val + BitVec.ofNat 32 w.val := by
  rw [val_main_v13_apply, val_main_v12_apply, val_main_v9_apply, val_main_v8_apply, val_main_c_0_apply,
    val_main_v7_apply, val_main_v5_apply, val_main_v6_apply, val_main_v2_apply, val_main_v4_apply,
    val_main_v1_apply, val_main_v3_apply]
  show Scalar.select (IntOp.cmpi .slt (BitVec.ofNat 32 s.val + BitVec.ofNat 32 w.val) 0#32) _ (BitVec.ofNat 32 s.val + BitVec.ofNat 32 w.val) = _
  rw [word_not_slt _ _ s.isLt w.isLt, select_zero]

/-- The gather's dimension numbers. -/
abbrev gd := gather_S32x2063x64_S2048x16x1_S32x2048x16x64_03_1_n_n_1_2_32164

/-- The gather read at (b, s, w, f): the operand at (b, k, f), where k is the start index at (s, w, 0) read signed
    and clamped into [0, 2063 - 1]. -/
theorem gather_apply {α : Type} (x : S32x2063x64.Idx → α) (idx : IVec S2048x16x1 32)
    (b : Fin 32) (s : Fin 2048) (w : Fin 16) (f : Fin 64) :
    Host.gather gd x idx (ix4 b s w f)
      = x (ix3 b ⟨min (idx (ix3 s w (0 : Fin 1))).toInt.toNat (2063 - 1), by omega⟩ f) := by
  unfold Host.gather
  congr 1
  funext a
  match a with
  | ⟨0, _⟩ =>
    refine Fin.ext ?_
    show gd.start (ix4 b s w f) idx 0 + gd.batchCoord (ix4 b s w f) 0 + gd.offCoord (ix4 b s w f) 0 = b.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    refine Fin.ext ?_
    show gd.start (ix4 b s w f) idx 1 + gd.batchCoord (ix4 b s w f) 1 + gd.offCoord (ix4 b s w f) 1 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix4 b s w f) ⟨List.idxOf (1 : Fin 3) gd.startIndexMap,
        List.idxOf_lt_length_iff.2 (List.mem_singleton.mpr rfl)⟩ = ix3 s w (0 : Fin 1) := by
      funext c; refine Fin.ext ?_
      match c with
      | ⟨0, _⟩ => rfl
      | ⟨1, _⟩ => rfl
      | ⟨2, _⟩ => rfl
    rw [hsi]
    rfl
  | ⟨2, _⟩ =>
    refine Fin.ext ?_
    show gd.start (ix4 b s w f) idx 2 + gd.batchCoord (ix4 b s w f) 2 + gd.offCoord (ix4 b s w f) 2 = f.val
    rw [GatherDims.batchCoord_eq_zero _ _ _ List.not_mem_nil]
    unfold GatherDims.start
    rw [dif_neg (by decide)]
    unfold GatherDims.offCoord
    rw [dif_pos (by decide)]
    simp only [Nat.zero_add]
    rfl

/-- The padded array at a row of the input is the input there. -/
theorem pad_inside (x0 : (⟨S32x2048x64, .f32⟩ : BufTy).Contents (Elt F)) (b : Fin 32) (k : Fin 2063) (f : Fin 64)
    (hk : k.val < 2048) :
    val_main_v0 (F := F) x0 (ix3 b k f) = x0 (ix3 b ⟨k.val, hk⟩ f) := by
  unfold val_main_v0
  refine pad_apply_of_inside _ _ _ _ _ _ _ _ (ix3 b ⟨k.val, hk⟩ f) (fun a => ?_)
  match a with
  | ⟨0, _⟩ => show b.val = 0 + b.val * (0 + 1); omega
  | ⟨1, _⟩ => show k.val = 0 + k.val * (0 + 1); omega
  | ⟨2, _⟩ => show f.val = 0 + f.val * (0 + 1); omega

/-- The padded array past the input's last row is the fill value. -/
theorem pad_outside (x0 : (⟨S32x2048x64, .f32⟩ : BufTy).Contents (Elt F)) (b : Fin 32) (k : Fin 2063) (f : Fin 64)
    (hk : ¬ k.val < 2048) :
    val_main_v0 (F := F) x0 (ix3 b k f) = val_main_call0_v0 (F := F) (Shape.Idx.first h_S_) := by
  unfold val_main_v0
  refine pad_apply_of_not_inside _ _ _ _ _ _ _ _ (1 : Fin 3) ?_
  show ¬(0 ≤ k.val ∧ (k.val - 0) % (0 + 1) = 0 ∧ (k.val - 0) / (0 + 1) < 2048)
  omega

/-- The reference's result at (b, s, w, f), for any float values: the input at row s + w when that row exists, else the
    fill value (the start index s + w is at most 2047 + 15 = 2063 - 1, so the gather's clamp leaves it). -/
theorem v14_apply (x0 : (⟨S32x2048x64, .f32⟩ : BufTy).Contents (Elt F)) (b : Fin 32) (s : Fin 2048) (w : Fin 16) (f : Fin 64) :
    val_main_v14 (F := F) x0 (ix4 b s w f)
      = if h : s.val + w.val < 2048 then x0 (ix3 b ⟨s.val + w.val, h⟩ f)
        else val_main_call0_v0 (F := F) (Shape.Idx.first h_S_) := by
  have hs := s.isLt
  have hw := w.isLt
  have hk : min (val_main_v13 (F := F) (ix3 s w (0 : Fin 1))).toInt.toNat (2063 - 1) = s.val + w.val := by
    rw [v13_apply, word_toInt_toNat _ _ hs hw]; omega
  unfold val_main_v14
  rw [gather_apply]
  generalize hK : (⟨min (val_main_v13 (F := F) (ix3 s w (0 : Fin 1))).toInt.toNat (2063 - 1), by omega⟩ : Fin 2063) = K
  have hKv : K.val = s.val + w.val := by rw [← hK]; exact hk
  by_cases h : s.val + w.val < 2048
  · rw [dif_pos h, pad_inside x0 b K f (by rw [hKv]; exact h)]
    exact congrArg x0 (congrArg (fun r => ix3 b r f) (Fin.ext hKv))
  · rw [dif_neg h, pad_outside x0 b K f (by rw [hKv]; exact h)]

/-- At the extended reals the fill value, the integer 0 converted, is 0. -/
theorem fill_ideal : val_main_call0_v0 (F := Ideal) (Shape.Idx.first h_S_) = (0 : EReal) := by
  show ((((0#32 : BitVec 32).toInt : ℤ) : ℝ) : EReal) = 0
  simp

/-- The reference's result, at the extended reals, is the sliding-window unfold of the input with fill value 0. -/
theorem result_eq (x0 : (⟨S32x2048x64, .f32⟩ : BufTy).Contents (Elt Ideal)) :
    Cert.ReferenceIdeal.Read.val_main_v14 (F := Ideal) x0 = Cert.Unfold.windows (0 : EReal) x0 := by
  funext i
  obtain ⟨b, s, w, f, rfl⟩ : ∃ (b : Fin 32) (s : Fin 2048) (w : Fin 16) (f : Fin 64), i = ix4 b s w f :=
    ⟨i 0, i 1, i 2, i 3, eq_ix4 i⟩
  rw [v14_apply, Cert.Unfold.windows_apply, fill_ideal]

end Cert.ReferenceIdeal.RefValue

end
-- ==== Proof.lean ====
/-
  The sliding-window unfold kernel against its reference: the claim.

  For an input `x` of shape [32, 2048, 64], both programs end with the array of shape [32, 2048, 16, 64] whose
  entry (b, s, w, f) is `x (b, s + w, f)` when `s + w < 2048` and zero otherwise (`Cert.Unfold.windows`, Spec.lean).
  The kernel builds it one batch element per grid point, as eight masked cyclic moves of a two-row array, written to a
  flat [32, 2048, 1024] array that a host reshape then splits (Pair.lean, Block.lean, Result.lean); the reference pads
  the input with 15 zero rows and gathers rows `s + w` (RefValue.lean). Nothing but data movement and a fill value is
  involved, so the two results agree entry by entry for every input, finite or not: the zero word of the kernel and the
  converted integer zero of the reference both denote the extended real 0. The three programs' runs terminate without a
  fault and leave the argument unchanged; no rewrite was applied in idealizing the kernel, so there is nothing to
  preserve.
-/
import proofs.«418246_j13022340841695_3_alg».proof.Defs
import proofs.«418246_j13022340841695_3_alg».proof.Proof.Gen.Kernel
import proofs.«418246_j13022340841695_3_alg».proof.Proof.Gen.Kernel.Skeleton
import proofs.«418246_j13022340841695_3_alg».proof.Proof.Gen.Kernel.Launch
import proofs.«418246_j13022340841695_3_alg».proof.Proof.Gen.Kernel.Points
import proofs.«418246_j13022340841695_3_alg».proof.Proof.Gen.Kernel.Frame
import proofs.«418246_j13022340841695_3_alg».proof.Proof.Gen.KernelIdeal
import proofs.«418246_j13022340841695_3_alg».proof.Proof.Gen.KernelIdeal.Skeleton
import proofs.«418246_j13022340841695_3_alg».proof.Proof.Gen.KernelIdeal.Launch
import proofs.«418246_j13022340841695_3_alg».proof.Proof.Gen.KernelIdeal.Points
import proofs.«418246_j13022340841695_3_alg».proof.Proof.Gen.KernelIdeal.Frame
import proofs.«418246_j13022340841695_3_alg».proof.Proof.Gen.ReferenceIdeal
import proofs.«418246_j13022340841695_3_alg».proof.Proof.Gen.Pre_finite_inputs
import proofs.«418246_j13022340841695_3_alg».proof.Proof.Gen.ReferenceIdeal.Run
import proofs.«418246_j13022340841695_3_alg».proof.Proof.Gen.ReferenceIdeal.Read
import proofs.«418246_j13022340841695_3_alg».proof.Proof.Result
import proofs.«418246_j13022340841695_3_alg».proof.Proof.RefValue
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem

/-- The kernel's fill word denotes the extended real 0. -/
theorem zero_word : Cert.KernelIdeal.Body.zeroW (F := Ideal) = (0 : EReal) := Ideal.ofBits_zero_f32

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the unfold, with fill value 0, of arguments that agree. -/
theorem algebraic : Cert.algebraic_KernelIdeal_ReferenceIdeal := by
  intro m ρ m' ρ' _ hagree
  refine ⟨fun c => Cert.Unfold.windows (0 : EReal)
    (m ((c.tc : Thread Cert.KernelIdeal.nD Cert.KernelIdeal.τ).loc Cert.KernelIdeal.main_arg0)), ?_, ?_⟩
  · have h := Cert.KernelIdeal.Body.run (F := Ideal) m ρ
    rw [zero_word] at h
    exact h
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
